-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S8x1x1024 : Shape := ⟨3, ![8, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S255x1024 : Shape := ⟨2, ![255, 1024]⟩
abbrev S8x1024 : Shape := ⟨2, ![8, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8x2048x1024, .f32⟩
  | .hbm, ⟨12, _⟩ => ⟨S8x1x1024, .f32⟩
  | .hbm, ⟨13, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_25 : BitVec 32 := 0#32
  let v52 : BitVec 1 := Scalar.cmpi .ne v51 c0_i32_25
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S1024_S1x1024 : S1024.ShapeCasts S1x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  slices_S256x1024_o0_0_S255x1024 : S256x1024.Slices ![0, 0] S255x1024
  concatenates_S1x1024_S255x1024_S256x1024_d0 : Shape.Concatenates [S1x1024, S255x1024] S256x1024 0
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S1x256x1024 : S256x1024.ShapeCasts S1x256x1024
  slices_S256x1024_o255_0_S1x1024 : S256x1024.Slices ![255, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x1024_S8x1024 : S8x1x1024.ShapeCasts S8x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S8x2048x1024.size a
  hwx0_6 : ∀ i : grid0.Coords, EltTy.bits .f32 = 32 ∨ (Rect.block (s := S8x2048x1024) S1x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S8x1x1024.size a
  hwx0_7 : ∀ i : grid0.Coords, EltTy.bits .f32 = 32 ∨ (Rect.block (s := S8x1x1024) S1x1x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x1x1024 : Shape := ⟨3, ![8, 1, 1024]⟩
abbrev S8x2047x1024 : Shape := ⟨3, ![8, 2047, 1024]⟩
abbrev S1x1x1024 : Shape := ⟨3, ![1, 1, 1024]⟩
abbrev S8x1024 : Shape := ⟨2, ![8, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8x1x1024, .f32⟩
  | .hbm, ⟨8, _⟩ => ⟨S8x2047x1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x1x1024, .f32⟩
  | .hbm, ⟨47, _⟩ => ⟨S8x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S8x1x1024 : S_.BroadcastsInDim S8x1x1024 (![] : Fin 0 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S1024 : S_.BroadcastsInDim S1024 (![] : Fin 0 → Fin S1024.rank)
  bcast_S_S8x2048x1024 : S_.BroadcastsInDim S8x2048x1024 (![] : Fin 0 → Fin S8x2048x1024.rank)
  slices_S8x2048x1024_S8x1x1024_0_2047_0 : S8x2048x1024.Slices ![0, 2047, 0] S8x1x1024
  shapeCasts_S8x1x1024_S8x1024 : S8x1x1024.ShapeCasts S8x1024
  dot_S8x2048x1024_S1024x1024_S8x2048x1024_2_1_01_0_n_n_wf : DotDims.WF S8x2048x1024 S1024x1024 S8x2048x1024 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.KernelTerms.lean ====
/-
  What one grid step of the kernel computes, as pure terms of the blocks it loads.

  A step sees a block of 256 consecutive tokens of one batch row, the row the previous step left behind (the
  token just before the block, or zeros at the start of a batch row), the two blend vectors and the three weights.
  It produces the block of outputs, and hands on its own last token.
-/
import proofs.«133408_j63144609185889_1_alg».proof.Proof.Gen.KernelIdeal.Skeleton

noncomputable section

namespace Cert.KernelIdeal.Terms

open Cert.KernelIdeal Cert.KernelIdeal.Gen Idealize.ShloMosaic

variable {F : FTy → Type} [FloatOps F]

/-- The row a batch row starts from: zeros. -/
def zeroRow : Vec F S1x1024 .f32 := k0_pay4

/-- The last token of a block, as the row handed to the next step. -/
def lastRow (x0 : Vec F S1x256x1024 .f32) : Vec F S1x1024 .f32 := k0_pay2 (k0_pay5 x0)

/-- The last token of a block, as the one-row block of the state output. -/
def stateRow (x0 : Vec F S1x256x1024 .f32) : Vec F S1x1x1024 .f32 := k0_pay3 (k0_pay5 x0)

/-- The block of outputs: the gate of the mu_r blend through W_r, times the squared clipped mu_k blend through W_k
    and then W_v; the blends pair each token with its predecessor, the first token with the row handed in. -/
def blockOut (x0 : Vec F S1x256x1024 .f32) (prev mur muk : Vec F S1x1024 .f32) (wr wk wv : Vec F S1024x1024 .bf16) :
    Vec F S1x256x1024 .f32 :=
  k0_pay1 (k0_pay7 x0 prev muk) (k0_pay8 wk) (k0_pay9 wv) (k0_pay10 x0 prev mur wr) (constant S256x1024 .f32 0x00000000#32)

end Cert.KernelIdeal.Terms

end
-- ==== Proof.KernelPieces.lean ====
/-
  What one grid step leaves in the output blocks and in the carried row, case by case, as the step's pure terms.

  The step's control has three cases: the first step of a batch row (the carried row is reset to zeros before it
  is read), a middle step, and the last step of a batch row (which also stores the state block). In every case the
  output block is the step's output term of the loaded blocks and of the row handed in (zeros in the first case),
  and the row handed on is the block's last token.
-/
import proofs.«133408_j63144609185889_1_alg».proof.Proof.Gen.KernelIdeal.Frame
import proofs.«133408_j63144609185889_1_alg».proof.Proof.KernelTerms
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Idealize.ShloMosaic.Pipeline (Dat)
open Cert.KernelIdeal Cert.KernelIdeal.Gen Cert.KernelIdeal.Terms

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords)
  (arg2 : Memref sig .tc .vmem S1x256x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x1024 .bf16) (harg5 : arg5.IsWhole)
  (arg6 : Memref sig .tc .vmem S1024x1024 .bf16) (harg6 : arg6.IsWhole)
  (arg7 : Memref sig .tc .vmem S1024x1024 .bf16) (harg7 : arg7.IsWhole)
  (arg8 : Memref sig .tc .vmem S1x256x1024 .f32) (harg8 : arg8.IsWhole)
  (arg9 : Memref sig .tc .vmem S1x1x1024 .f32) (harg9 : arg9.IsWhole)
  (arg10 : Memref sig .tc .vmem S1x1024 .f32) (harg10 : arg10.IsWhole)
  (x0 : Vec F S1x256x1024 .f32) (x1 x2 : Vec F S1x1024 .f32) (x3 x4 x5 : Vec F S1024x1024 .bf16)
  (xs0 : Vec F S1x1024 .f32)

/-! ### A middle step -/

/-- A middle step hands on its block's last token. -/
theorem carried_B (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 x5 xs0 = lastRow x0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  unfold lastRow
  simp only [View.readAt_eq_ld, harg2.read_unread, View.ld_unit_zero (S := S1x256x1024) hz3]

/-- A middle step's output block is the step's output term of its blocks and the row handed in. -/
theorem output_B (hc0 : ¬cond0_0 i) (hc1 : ¬cond0_1 i) :
    out0_B_6 c i arg2 harg2 arg3 harg3 arg4 harg4 arg5 harg5 arg6 harg6 arg7 harg7 arg8 harg8 arg9 harg9 arg10 harg10 hc0 hc1 x0 x1 x2 x3 x4 x5 xs0 = blockOut x0 xs0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz3]
  unfold blockOut
  simp only [View.readAt_eq_ld, harg2.read_unread, harg3.read_unread, harg4.read_unread, harg5.read_unread, harg6.read_unread,
    harg7.read_unread, harg10.read_unread, View.ld_unit_zero (S := S1x256x1024) hz3, View.ld_unit_zero (S := S1x1024) hz2,
    View.ld_unit_zero (S := S1024x1024) hz2]

/-! ### The last step of a batch row -/

/-- The last step hands on its block's last token. -/
theorem carried_C (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 x5 xs0 = lastRow x0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  unfold lastRow
  simp only [View.readAt_eq_ld, harg2.read_unread, View.ld_unit_zero (S := S1x256x1024) hz3]

/-- The last step's output block. -/
theorem output_C (hc0 : ¬cond0_0 i) (hc1 : cond0_1 i) :
    out0_C_6 c i arg2 harg2 arg3 harg3 arg4 harg4 arg5 harg5 arg6 harg6 arg7 harg7 arg8 harg8 arg9 harg9 arg10 harg10 hc0 hc1 x0 x1 x2 x3 x4 x5 xs0 = blockOut x0 xs0 x1 x2 x3 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz3]
  unfold blockOut
  simp only [View.readAt_eq_ld, harg2.read_unread, harg3.read_unread, harg4.read_unread, harg5.read_unread, harg6.read_unread,
    harg7.read_unread, harg10.read_unread, View.ld_unit_zero (S := S1x256x1024) hz3, View.ld_unit_zero (S := S1x1024) hz2,
    View.ld_unit_zero (S := S1024x1024) hz2]

/-- The last step's state block is its block's last token. -/
theorem stateBlock_C (hc0 : ¬cond0_0 i) (hc1 : cond0_1 i) :
    out0_C_7 c i arg2 harg2 arg3 harg3 arg4 harg4 arg5 harg5 arg6 harg6 arg7 harg7 arg8 harg8 arg9 harg9 arg10 harg10 hc0 hc1 x0 x1 x2 x3 x4 x5 xs0 = stateRow x0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz3]
  unfold stateRow
  simp only [View.readAt_eq_ld, harg2.read_unread, View.ld_unit_zero (S := S1x256x1024) hz3]

/-! ### The first step of a batch row -/

/-- The first step hands on its block's last token: the later of its two stores into the carried row covers the reset. -/
theorem carried_A (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 x5 = lastRow x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1024) hz2]
  unfold lastRow
  simp only [View.readAt_eq_ld, harg2.read_unread, View.ld_unit_zero (S := S1x256x1024) hz3]

/-- The first step's output block: the row it reads is the zero row it has just stored. -/
theorem output_A (hc0 : cond0_0 i) (hc1 : ¬cond0_1 i) :
    out0_A_6 c i arg2 harg2 arg3 harg3 arg4 harg4 arg5 harg5 arg6 harg6 arg7 harg7 arg8 harg8 arg9 harg9 arg10 harg10 hc0 hc1 x0 x1 x2 x3 x4 x5 = blockOut x0 zeroRow x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero hz3]
  unfold blockOut zeroRow
  simp only [View.readAt_eq_ld, harg2.read_unread, harg3.read_unread, harg4.read_unread, harg5.read_unread, harg6.read_unread,
    harg7.read_unread, View.readCov_unit_zero (S := S1x1024) _ hz2, View.ld_unit_zero (S := S1x256x1024) hz3,
    View.ld_unit_zero (S := S1x1024) hz2, View.ld_unit_zero (S := S1024x1024) hz2]

end

/-! ## What every point leaves -/

section
variable (m : (ℓ : Loc nD τ sig) → Buf (Elt F) ℓ)

/-- The blocks a step loads, at their literal vector types: the 256 tokens, the two blend rows, the three weights. -/
abbrev xblk (c : Dev nD) (t : Fin cfg0.N) : Vec F S1x256x1024 .f32 := iblk m c 0 t
abbrev murblk (c : Dev nD) (t : Fin cfg0.N) : Vec F S1x1024 .f32 := iblk m c 1 t
abbrev mukblk (c : Dev nD) (t : Fin cfg0.N) : Vec F S1x1024 .f32 := iblk m c 2 t
abbrev wrblk (c : Dev nD) (t : Fin cfg0.N) : Vec F S1024x1024 .bf16 := iblk m c 3 t
abbrev wkblk (c : Dev nD) (t : Fin cfg0.N) : Vec F S1024x1024 .bf16 := iblk m c 4 t
abbrev wvblk (c : Dev nD) (t : Fin cfg0.N) : Vec F S1024x1024 .bf16 := iblk m c 5 t

/-- The row handed to step n: zeros at the first step of a batch row, the previous block's last token otherwise. -/
def handed (c : Dev nD) (n : ℕ) (h : n < cfg0.N) : Vec F S1x1024 .f32 :=
  if n % 8 = 0 then zeroRow else lastRow (xblk m c ⟨n - 1, Nat.lt_of_le_of_lt (Nat.sub_le _ _) h⟩)

/-- After every step the carried row is that step's last token, whichever case the step is in. -/
theorem carried_after (c : Dev nD) (n : ℕ) (h : n < cfg0.N) :
    (outsAt0 m c n h).2.2 = lastRow (xblk m c ⟨n, h⟩) := by
  have hN : n < 64 := lt_of_lt_of_eq h (show cfg0.N = 64 from N_0)
  by_cases h0 : n % 8 = 0
  · have h1 : ¬n % 8 = 7 := by omega
    rw [outsAt0_A m c ⟨n, h⟩ h0 h1]; dsimp only
    exact carried_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr h0) (fun hh => h1 ((hcond0_1 ⟨n, h⟩).mp hh))
  · by_cases h1 : n % 8 = 7
    · rw [outsAt0_C m c ⟨n, h⟩ h0 h1]; dsimp only
      exact carried_C (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((outsAt0 m c ((⟨n, h⟩ : Fin cfg0.N).val - 1) (Nat.lt_of_le_of_lt (Nat.sub_le _ _) (⟨n, h⟩ : Fin cfg0.N).isLt)).2.2) (fun hh => h0 ((hcond0_0 ⟨n, h⟩).mp hh)) ((hcond0_1 ⟨n, h⟩).mpr h1)
    · rw [outsAt0_B m c ⟨n, h⟩ h0 h1]; dsimp only
      exact carried_B (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((outsAt0 m c ((⟨n, h⟩ : Fin cfg0.N).val - 1) (Nat.lt_of_le_of_lt (Nat.sub_le _ _) (⟨n, h⟩ : Fin cfg0.N).isLt)).2.2) (fun hh => h0 ((hcond0_0 ⟨n, h⟩).mp hh)) (fun hh => h1 ((hcond0_1 ⟨n, h⟩).mp hh))

/-- After every step the output block is the step's output term of its blocks and the row handed to it. -/
theorem output_after (c : Dev nD) (n : ℕ) (h : n < cfg0.N) :
    (outsAt0 m c n h).1 = blockOut (xblk m c ⟨n, h⟩) (handed m c n h) (murblk m c ⟨n, h⟩) (mukblk m c ⟨n, h⟩)
      (wrblk m c ⟨n, h⟩) (wkblk m c ⟨n, h⟩) (wvblk m c ⟨n, h⟩) := by
  have hN : n < 64 := lt_of_lt_of_eq h (show cfg0.N = 64 from N_0)
  by_cases h0 : n % 8 = 0
  · have h1 : ¬n % 8 = 7 := by omega
    rw [outsAt0_A m c ⟨n, h⟩ h0 h1]; dsimp only
    refine (output_A (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr h0) (fun hh => h1 ((hcond0_1 ⟨n, h⟩).mp hh))).trans ?_
    unfold handed; rw [if_pos h0]
  · have hprev : ((outsAt0 m c ((⟨n, h⟩ : Fin cfg0.N).val - 1) (Nat.lt_of_le_of_lt (Nat.sub_le _ _) (⟨n, h⟩ : Fin cfg0.N).isLt)).2.2) = handed m c n h := by
      unfold handed; rw [if_neg h0]
      exact carried_after m c (n - 1) _
    by_cases h1 : n % 8 = 7
    · rw [outsAt0_C m c ⟨n, h⟩ h0 h1]; dsimp only
      refine (output_C (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((outsAt0 m c ((⟨n, h⟩ : Fin cfg0.N).val - 1) (Nat.lt_of_le_of_lt (Nat.sub_le _ _) (⟨n, h⟩ : Fin cfg0.N).isLt)).2.2) (fun hh => h0 ((hcond0_0 ⟨n, h⟩).mp hh)) ((hcond0_1 ⟨n, h⟩).mpr h1)).trans ?_
      rw [hprev]
    · rw [outsAt0_B m c ⟨n, h⟩ h0 h1]; dsimp only
      refine (output_B (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((outsAt0 m c ((⟨n, h⟩ : Fin cfg0.N).val - 1) (Nat.lt_of_le_of_lt (Nat.sub_le _ _) (⟨n, h⟩ : Fin cfg0.N).isLt)).2.2) (fun hh => h0 ((hcond0_0 ⟨n, h⟩).mp hh)) (fun hh => h1 ((hcond0_1 ⟨n, h⟩).mp hh))).trans ?_
      rw [hprev]

/-- After the last step of a batch row the state block is that step's last token. -/
theorem state_after (c : Dev nD) (n : ℕ) (h : n < cfg0.N) (h1 : n % 8 = 7) :
    (outsAt0 m c n h).2.1 = stateRow (xblk m c ⟨n, h⟩) := by
  have h0 : ¬n % 8 = 0 := by omega
  rw [outsAt0_C m c ⟨n, h⟩ h0 h1]; dsimp only
  exact stateBlock_C (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) (iblk m c 0 ⟨n, h⟩) (iblk m c 1 ⟨n, h⟩) (iblk m c 2 ⟨n, h⟩) (iblk m c 3 ⟨n, h⟩) (iblk m c 4 ⟨n, h⟩) (iblk m c 5 ⟨n, h⟩) ((outsAt0 m c ((⟨n, h⟩ : Fin cfg0.N).val - 1) (Nat.lt_of_le_of_lt (Nat.sub_le _ _) (⟨n, h⟩ : Fin cfg0.N).isLt)).2.2) (fun hh => h0 ((hcond0_0 ⟨n, h⟩).mp hh)) ((hcond0_1 ⟨n, h⟩).mpr h1)

end

end Cert.KernelIdeal.Pieces

end
-- ==== Proof.KernelBlock.lean ====
/-
  One grid step's terms read at an index, over the extended reals.
-/
import proofs.«133408_j63144609185889_1_alg».proof.Proof.KernelTerms
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Block

open Cert.KernelIdeal Cert.KernelIdeal.Gen Cert.KernelIdeal.Terms Idealize.ShloMosaic Idealize.ShloMosaic.ValueIdx

/-- Token p of a block blended with its predecessor: the token before it in the block, or, for the block's first
    token, the row handed in. -/
def blend (mu : FVec Ideal S1x1024 .f32) (x0 : FVec Ideal S1x256x1024 .f32) (prev : FVec Ideal S1x1024 .f32)
    (p : Fin 256) (k : Fin 1024) : EReal :=
  mu (ix2 0 k) * x0 (ix3 0 p k)
    + (1 - mu (ix2 0 k)) * (if h : p.val = 0 then prev (ix2 0 k) else x0 (ix3 0 ⟨p.val - 1, by have := p.isLt; omega⟩ k))

/-! ### The layout operations at coordinates -/

/-- The block viewed as 256 rows: row p is token p of the one batch row. -/
theorem rows_apply (x0 : FVec Ideal S1x256x1024 .f32) (p : Fin 256) (k : Fin 1024) :
    k0_pay5 (F := Ideal) x0 (ix2 p k) = x0 (ix3 0 p k) := by
  unfold k0_pay5
  exact shapeCast_1ab_ab_apply x0 _ p k

/-- The rows shifted down by one: row 0 is the row handed in, row p > 0 is token p - 1. -/
theorem shifted_apply (x0 : FVec Ideal S1x256x1024 .f32) (prev : FVec Ideal S1x1024 .f32) (p : Fin 256) (k : Fin 1024) :
    k0_pay6 (F := Ideal) x0 prev (ix2 p k)
      = if h : p.val = 0 then prev (ix2 0 k) else x0 (ix3 0 ⟨p.val - 1, by have := p.isLt; omega⟩ k) := by
  unfold k0_pay6
  split
  · next h =>
    exact concatenate_pair_apply_left (t := S256x1024) (s₁ := S1x1024) (s₂ := S255x1024) (0 : Fin S256x1024.rank) prev _ _ (ix2 p k) rfl (ix2 (0 : Fin 1) k) (fun b => by
      match b with
      | ⟨0, _⟩ => exact h.symm
      | ⟨1, _⟩ => rfl)
  · next h =>
    refine (concatenate_pair_apply_right (t := S256x1024) (s₁ := S1x1024) (s₂ := S255x1024) (0 : Fin S256x1024.rank) prev _ _ (ix2 p k) rfl rfl
      (ix2 (⟨p.val - 1, by have := p.isLt; omega⟩ : Fin 255) k) (fun b hb => ?_) ?_).trans ?_
    · match b with
      | ⟨0, _⟩ => exact absurd rfl hb
      | ⟨1, _⟩ => rfl
    · show (p.val - 1) + 1 = p.val
      omega
    · refine (slice2_axis0_apply 0 _ _ (⟨p.val - 1, by have := p.isLt; omega⟩ : Fin 255) k
        (⟨p.val - 1, by have := p.isLt; omega⟩ : Fin 256) (Nat.zero_add _).symm).trans ?_
      exact rows_apply x0 _ k

/-! ### The contraction at coordinates

Both operands are contracted along their second axis: element (p, q) of the product is the sum over k of the left
operand at (p, k) times the right operand at (q, k). -/

theorem lhs_axis0 (i : S256x1024.Idx) (c : dot_S256x1024_S1024x1024_S256x1024_1_1_0_0_n_n.contr.Idx) :
    (dot_S256x1024_S1024x1024_S256x1024_1_1_0_0_n_n.lhsIdx i c 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl

theorem lhs_axis1 (i : S256x1024.Idx) (c : dot_S256x1024_S1024x1024_S256x1024_1_1_0_0_n_n.contr.Idx) :
    (dot_S256x1024_S1024x1024_S256x1024_1_1_0_0_n_n.lhsIdx i c 1).val = (c ⟨0, by decide⟩).val :=
  dot_S256x1024_S1024x1024_S256x1024_1_1_0_0_n_n.lhsIdx_val_of_single rfl i c

theorem rhs_axis0 (i : S256x1024.Idx) (c : dot_S256x1024_S1024x1024_S256x1024_1_1_0_0_n_n.contr.Idx) :
    (dot_S256x1024_S1024x1024_S256x1024_1_1_0_0_n_n.rhsIdx i c 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

theorem rhs_axis1 (i : S256x1024.Idx) (c : dot_S256x1024_S1024x1024_S256x1024_1_1_0_0_n_n.contr.Idx) :
    (dot_S256x1024_S1024x1024_S256x1024_1_1_0_0_n_n.rhsIdx i c 1).val = (c ⟨0, by decide⟩).val :=
  dot_S256x1024_S1024x1024_S256x1024_1_1_0_0_n_n.rhsIdx_val_of_single rfl i c

/-- The product into the zero accumulator, at row p and column q. -/
theorem matmul_at (lhs : FVec Ideal S256x1024 .bf16) (rhs : FVec Ideal S1024x1024 .bf16) (p : Fin 256) (q : Fin 1024) :
    matmul dot_S256x1024_S1024x1024_S256x1024_1_1_0_0_n_n none lhs rhs (constant (F := Ideal) S256x1024 .f32 0x00000000#32) (ix2 p q)
      = ∑ k : Fin 1024, lhs (ix2 p k) * rhs (ix2 q k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 p q) ((ValueIdx.contrEquiv1 dot_S256x1024_S1024x1024_S256x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_1_0_0_n_n.rhsIdx (ix2 p q) ((ValueIdx.contrEquiv1 dot_S256x1024_S1024x1024_S256x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ### The blend, the gate and the block of outputs -/

/-- The blend as the step spells it: the blend vector over every row times the rows, plus one minus the blend
    vector over every row times the shifted rows. -/
def mixed (mu : FVec Ideal S1x1024 .f32) (x0 : FVec Ideal S1x256x1024 .f32) (prev : FVec Ideal S1x1024 .f32) :
    FVec Ideal S256x1024 .f32 :=
  addf
    (mulf (broadcastTo S256x1024 (shapeCast S1x1024 mu shapeCasts_S1x1024_S1x1024) broadcasts_S1x1024_S256x1024)
      (k0_pay5 (F := Ideal) x0))
    (mulf (broadcastTo S256x1024
        (subf (broadcast S1x1024 (Scalar.ofBits (F := Ideal) .f32 0x3F800000#32)) (shapeCast S1x1024 mu shapeCasts_S1x1024_S1x1024))
        broadcasts_S1x1024_S256x1024)
      (k0_pay6 (F := Ideal) x0 prev))

/-- At row p and channel k it is the blend of token p with its predecessor. -/
theorem mixed_apply (mu : FVec Ideal S1x1024 .f32) (x0 : FVec Ideal S1x256x1024 .f32) (prev : FVec Ideal S1x1024 .f32)
    (p : Fin 256) (k : Fin 1024) : mixed mu x0 prev (ix2 p k) = blend mu x0 prev p k := by
  unfold mixed blend
  rw [addf_apply, mulf_apply, mulf_apply, broadcastTo_1b_ab_apply, broadcastTo_1b_ab_apply, subf_apply,
    broadcast_apply, shapeCast_self, rows_apply, shifted_apply]
  show mu (ix2 0 k) * x0 (ix3 0 p k) + (Ideal.ofBits .f32 0x3F800000#32 - mu (ix2 0 k)) * _ = _
  rw [Ideal.ofBits_one_f32]

/-- The mu_k blend, narrowed. -/
theorem keyIn_apply (x0 : FVec Ideal S1x256x1024 .f32) (prev muk : FVec Ideal S1x1024 .f32) (p : Fin 256) (k : Fin 1024) :
    k0_pay7 (F := Ideal) x0 prev muk (ix2 p k) = blend muk x0 prev p k :=
  mixed_apply muk x0 prev p k

/-- The gate: the logistic of the mu_r blend through W_r. -/
theorem gate_apply (x0 : FVec Ideal S1x256x1024 .f32) (prev mur : FVec Ideal S1x1024 .f32) (wr : FVec Ideal S1024x1024 .bf16)
    (p : Fin 256) (q : Fin 1024) :
    k0_pay10 (F := Ideal) x0 prev mur wr (ix2 p q)
      = Ideal.logistic (∑ k : Fin 1024, blend mur x0 prev p k * wr (ix2 q k)) := by
  show Ideal.logistic (matmul dot_S256x1024_S1024x1024_S256x1024_1_1_0_0_n_n none
      (truncf .bf16 (mixed mur x0 prev) bitsLt_bf16_f32) (shapeCast S1024x1024 wr shapeCasts_S1024x1024_S1024x1024)
      (constant (F := Ideal) S256x1024 .f32 0x00000000#32) (ix2 p q)) = _
  refine congrArg Ideal.logistic ((matmul_at _ _ p q).trans (Finset.sum_congr rfl fun k _ => ?_))
  rw [truncf_apply, mixed_apply, shapeCast_self]

/-- The squared clipped mu_k blend through W_k, at token p and hidden channel e. -/
theorem hidden_apply (x0 : FVec Ideal S1x256x1024 .f32) (prev muk : FVec Ideal S1x1024 .f32) (wk : FVec Ideal S1024x1024 .bf16)
    (p : Fin 256) (e : Fin 1024) :
    matmul dot_S256x1024_S1024x1024_S256x1024_1_1_0_0_n_n none (k0_pay7 (F := Ideal) x0 prev muk) (k0_pay8 (F := Ideal) wk)
        (constant (F := Ideal) S256x1024 .f32 0x00000000#32) (ix2 p e)
      = ∑ k : Fin 1024, blend muk x0 prev p k * wk (ix2 e k) := by
  refine (matmul_at _ _ p e).trans (Finset.sum_congr rfl fun k _ => ?_)
  exact congrArg₂ (· * ·) (keyIn_apply x0 prev muk p k) (congrFun (shapeCast_self wk _) _)

/-- The block of outputs at token p and output channel q. -/
theorem blockOut_apply (x0 : FVec Ideal S1x256x1024 .f32) (prev mur muk : FVec Ideal S1x1024 .f32)
    (wr wk wv : FVec Ideal S1024x1024 .bf16) (p : Fin 256) (q : Fin 1024) :
    blockOut (F := Ideal) x0 prev mur muk wr wk wv (ix3 0 p q)
      = Ideal.logistic (∑ k : Fin 1024, blend mur x0 prev p k * wr (ix2 q k))
        * ∑ e : Fin 1024, (max (∑ k : Fin 1024, blend muk x0 prev p k * wk (ix2 e k)) 0
            * max (∑ k : Fin 1024, blend muk x0 prev p k * wk (ix2 e k)) 0) * wv (ix2 q e) := by
  unfold blockOut k0_pay1
  refine (shapeCast_ab_1ab_apply _ _ 0 p q).trans ?_
  refine (mulf_apply _ _ _).trans ?_
  refine congrArg₂ (· * ·) (gate_apply x0 prev mur wr p q) ?_
  refine (matmul_at _ _ p q).trans (Finset.sum_congr rfl fun e _ => ?_)
  refine congrArg₂ (· * ·) ?_ ?_
  · show max (matmul dot_S256x1024_S1024x1024_S256x1024_1_1_0_0_n_n none (k0_pay7 (F := Ideal) x0 prev muk)
          (k0_pay8 (F := Ideal) wk) (constant (F := Ideal) S256x1024 .f32 0x00000000#32) (ix2 p e)) (Ideal.ofBits .f32 0x00000000#32)
        * max (matmul dot_S256x1024_S1024x1024_S256x1024_1_1_0_0_n_n none (k0_pay7 (F := Ideal) x0 prev muk)
          (k0_pay8 (F := Ideal) wk) (constant (F := Ideal) S256x1024 .f32 0x00000000#32) (ix2 p e)) (Ideal.ofBits .f32 0x00000000#32) = _
    rw [hidden_apply, Ideal.ofBits_zero_f32]
  · exact congrFun (shapeCast_self wv _) _

/-- The row handed on is the block's last token. -/
theorem lastRow_apply (x0 : FVec Ideal S1x256x1024 .f32) (k : Fin 1024) :
    lastRow (F := Ideal) x0 (ix2 0 k) = x0 (ix3 0 ⟨255, by decide⟩ k) := by
  unfold lastRow k0_pay2
  refine (congrFun (shapeCast_self _ _) _).trans ?_
  refine (slice2_axis0_apply 255 _ _ (0 : Fin 1) k (⟨255, by decide⟩ : Fin 256) rfl).trans ?_
  exact rows_apply x0 _ k

/-- The state block is the block's last token. -/
theorem stateRow_apply (x0 : FVec Ideal S1x256x1024 .f32) (k : Fin 1024) :
    stateRow (F := Ideal) x0 (ix3 0 0 k) = x0 (ix3 0 ⟨255, by decide⟩ k) := by
  unfold stateRow k0_pay3
  refine (shapeCast_ab_1ab_apply _ _ 0 (0 : Fin 1) k).trans ?_
  refine (slice2_axis0_apply 255 _ _ (0 : Fin 1) k (⟨255, by decide⟩ : Fin 256) rfl).trans ?_
  exact rows_apply x0 _ k

/-- The row a batch row starts from is zero. -/
theorem zeroRow_apply (k : Fin 1024) : zeroRow (F := Ideal) (ix2 0 k) = 0 := by
  unfold zeroRow k0_pay4
  refine (congrFun (shapeCast_self _ _) _).trans ?_
  show Ideal.ofBits .f32 0x00000000#32 = 0
  exact Ideal.ofBits_zero_f32

end Cert.KernelIdeal.Block

end
-- ==== Proof.Spec.lean ====
/-
  The channel-mix layer as ONE function of its six argument arrays, index by index, over the extended reals.

  For a batch row b, a time step t and a channel c the token shift pairs x[b, t, c] with the same channel one
  step earlier, x[b, t-1, c], and with zero at t = 0. A learned per-channel weight mu blends the two:
  mu[c] · x[b, t, c] + (1 - mu[c]) · x[b, t-1, c]. The blend taken with mu_r is projected by W_r (rows of W index
  the output channel, columns the contracted one) and squashed by the logistic function: the receptance. The blend
  taken with mu_k is projected by W_k, clipped below at zero and squared: the key activation. The output is the
  receptance times the key activation projected by W_v. The second result is the last time step of x, per row.
-/
import Idealize.ShloMosaic.PureOps.Ideal.Laws
import Idealize.ShloMosaic.Lib.ValueIdx
import Idealize.ShloMosaic.Lib.IdealHost

noncomputable section

namespace Cert.ChannelMix

open Idealize.ShloMosaic Idealize.ShloMosaic.ValueIdx

/-- Activations [batch, time, channel], square weights [out, in], per-channel blends, and the carried state [batch, channel]. -/
abbrev Act : Shape := ⟨3, ![8, 2048, 1024]⟩
abbrev Wgt : Shape := ⟨2, ![1024, 1024]⟩
abbrev Chn : Shape := ⟨1, ![1024]⟩
abbrev Stt : Shape := ⟨2, ![8, 1024]⟩

/-- The previous token's channel: zero before the first step, x[b, t-1, c] afterwards. -/
def shifted (x : Act.Idx → EReal) (b : Fin 8) (t : Fin 2048) (c : Fin 1024) : EReal :=
  if h : t.val = 0 then 0 else x (ix3 b ⟨t.val - 1, by have := t.isLt; omega⟩ c)

/-- The blend of a token with its predecessor, channel by channel. -/
def mixed (mu : Chn.Idx → EReal) (x : Act.Idx → EReal) (b : Fin 8) (t : Fin 2048) (c : Fin 1024) : EReal :=
  mu (ix1 c) * x (ix3 b t c) + (1 - mu (ix1 c)) * shifted x b t c

/-- A row vector against the transpose of a weight: output channel d sums the vector against row d of W. -/
def proj (W : Wgt.Idx → EReal) (v : Fin 1024 → EReal) (d : Fin 1024) : EReal :=
  ∑ k : Fin 1024, v k * W (ix2 d k)

/-- The receptance gate. -/
def gate (x : Act.Idx → EReal) (Wr : Wgt.Idx → EReal) (mur : Chn.Idx → EReal) (b : Fin 8) (t : Fin 2048) (d : Fin 1024) : EReal :=
  Ideal.logistic (proj Wr (mixed mur x b t) d)

/-- The key activation: the projection clipped below at zero, squared. -/
def keyAct (x : Act.Idx → EReal) (Wk : Wgt.Idx → EReal) (muk : Chn.Idx → EReal) (b : Fin 8) (t : Fin 2048) (e : Fin 1024) : EReal :=
  max (proj Wk (mixed muk x b t) e) 0 * max (proj Wk (mixed muk x b t) e) 0

/-- The layer's output. -/
def out (x : Act.Idx → EReal) (Wr Wk Wv : Wgt.Idx → EReal) (mur muk : Chn.Idx → EReal) : Act.Idx → EReal :=
  fun i => gate x Wr mur (i 0) (i 1) (i 2) * proj Wv (keyAct x Wk muk (i 0) (i 1)) (i 2)

/-- The state handed to the next call: the last token of every row. -/
def state (x : Act.Idx → EReal) : Stt.Idx → EReal :=
  fun i => x (ix3 (i 0) ⟨2047, by decide⟩ (i 1))

/-- The logistic function spelled as the quotient 1 / (1 + e^(-z)), with the ones as the f32 word for one. -/
theorem logistic_eq_quotient (z : EReal) :
    Ideal.div (Ideal.ofBits .f32 0x3F800000#32) (Ideal.ofBits .f32 0x3F800000#32 + Ideal.exp (-z)) = Ideal.logistic z := by
  rw [Ideal.ofBits_one_f32]; rfl

end Cert.ChannelMix

end
-- ==== Proof.KernelArrays.lean ====
/-
  From blocks to arrays: what the kernel's two result arrays hold after the run, as the layer's specification of
  the argument arrays.

  The grid has 64 points; point n works on batch row n / 8 and on the block of 256 tokens number n % 8 of that row.
  Its output block is block (n / 8, n % 8) of the output array, and the 64 blocks tile the array. The state block
  is written back only by the last point of each batch row and is row n / 8 of the state array.
-/
import proofs.«133408_j63144609185889_1_alg».proof.Proof.KernelPieces
import proofs.«133408_j63144609185889_1_alg».proof.Proof.KernelBlock
import proofs.«133408_j63144609185889_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Terms Cert.KernelIdeal.Pieces Cert.KernelIdeal.Block

variable (m : (ℓ : Loc nD τ sig) → Buf (Elt Ideal) ℓ) (ρ : Dev nD → PrngReg)

/-! ## The grid -/

/-- Point n reads tokens block (n / 8, n % 8) and writes output block (n / 8, n % 8); the state block is row n / 8;
    the blend rows and the weights are fetched whole. -/
theorem idx_tokens : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx_output : ∀ t : Fin cfg0.N, win0_6.index t (0 : Fin 3) = t.val / 8 ∧ win0_6.index t (1 : Fin 3) = t.val % 8
    ∧ win0_6.index t (2 : Fin 3) = 0 :=
  (by decide +kernel : ∀ t : Fin grid0.N, _)
theorem idx_state : ∀ t : Fin cfg0.N, win0_7.index t (0 : Fin 3) = t.val / 8 ∧ win0_7.index t (1 : Fin 3) = 0
    ∧ win0_7.index t (2 : Fin 3) = 0 :=
  (by decide +kernel : ∀ t : Fin grid0.N, _)
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-! ## What the region finds in the arrays the host prepared -/

/-- The blend rows as [1, 1024] arrays, and the weights with their format changed (the identity here). -/
theorem V_mur (c : Dev nD) : (V m c main_v0 : S1x1024.Idx → EReal)
    = shapeCast S1x1024 (m ((c : Thread nD τ).loc main_arg4)) Facts₀.shapeCasts_S1024_S1x1024 := by
  show StableHlo.after hostOps0 (fun b => m (c, b)) (Proc.devRef .tc main_v0) = _
  after_results; rfl
theorem V_muk (c : Dev nD) : (V m c main_v1 : S1x1024.Idx → EReal)
    = shapeCast S1x1024 (m ((c : Thread nD τ).loc main_arg5)) Facts₀.shapeCasts_S1024_S1x1024 := by
  show StableHlo.after hostOps0 (fun b => m (c, b)) (Proc.devRef .tc main_v1) = _
  after_results; rfl
theorem V_wr (c : Dev nD) : (V m c main_v2 : S1024x1024.Idx → EReal) = m ((c : Thread nD τ).loc main_arg1) := by
  show StableHlo.after hostOps0 (fun b => m (c, b)) (Proc.devRef .tc main_v2) = _
  after_results; rfl
theorem V_wk (c : Dev nD) : (V m c main_v3 : S1024x1024.Idx → EReal) = m ((c : Thread nD τ).loc main_arg2) := by
  show StableHlo.after hostOps0 (fun b => m (c, b)) (Proc.devRef .tc main_v3) = _
  after_results; rfl
theorem V_wv (c : Dev nD) : (V m c main_v4 : S1024x1024.Idx → EReal) = m ((c : Thread nD τ).loc main_arg3) := by
  show StableHlo.after hostOps0 (fun b => m (c, b)) (Proc.devRef .tc main_v4) = _
  after_results; rfl

/-! ## The blocks a point loads -/

/-- The blend rows' and the weights' windows hold their whole array at every point. -/
theorem emb_mur (t : Fin cfg0.N) (y : S1x1024.Idx) : ((cfg0.win 1).blk t).view.emb y = y := by
  obtain ⟨⟨e0, e1⟩, -⟩ := idx_whole t
  funext a; apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega
theorem emb_muk (t : Fin cfg0.N) (y : S1x1024.Idx) : ((cfg0.win 2).blk t).view.emb y = y := by
  obtain ⟨-, ⟨e0, e1⟩, -⟩ := idx_whole t
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega
theorem emb_wr (t : Fin cfg0.N) (y : S1024x1024.Idx) : ((cfg0.win 3).blk t).view.emb y = y := by
  obtain ⟨-, -, ⟨e0, e1⟩, -⟩ := idx_whole t
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega
theorem emb_wk (t : Fin cfg0.N) (y : S1024x1024.Idx) : ((cfg0.win 4).blk t).view.emb y = y := by
  obtain ⟨-, -, -, ⟨e0, e1⟩, -⟩ := idx_whole t
  funext a; apply Fin.ext
  match a with
  | ⟨0, _⟩ => show win0_4.index t (0 : Fin 2) * 1024 + 1 * (y 0).val = (y 0).val; omega
  | ⟨1, _⟩ => show win0_4.index t (1 : Fin 2) * 1024 + 1 * (y 1).val = (y 1).val; omega
theorem emb_wv (t : Fin cfg0.N) (y : S1024x1024.Idx) : ((cfg0.win 5).blk t).view.emb y = y := by
  obtain ⟨-, -, -, -, ⟨e0, e1⟩⟩ := idx_whole t
  funext a; apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- A [1024] row seen as a [1, 1024] array: entry (0, k) is entry k. -/
theorem row_apply (v : S1024.Idx → EReal) (k : Fin 1024) :
    shapeCast S1x1024 v Facts₀.shapeCasts_S1024_S1x1024 (ix2 0 k) = v (ix1 k) := by
  refine (shapeCast_addUnit_apply ![1024] v Facts₀.shapeCasts_S1024_S1x1024 (ix2 0 k)).trans ?_
  exact congrArg v (funext fun a => by match a with | ⟨0, _⟩ => rfl)

/-- The blend rows a point loads are the blend vectors. -/
theorem murblk_apply (c : Dev nD) (t : Fin cfg0.N) (k : Fin 1024) :
    murblk m c t (ix2 0 k) = m ((c : Thread nD τ).loc main_arg4) (ix1 k) := by
  show V m c main_v0 (((cfg0.win 1).blk t).view.emb (ix2 0 k)) = _
  rw [emb_mur, V_mur, row_apply]
theorem mukblk_apply (c : Dev nD) (t : Fin cfg0.N) (k : Fin 1024) :
    mukblk m c t (ix2 0 k) = m ((c : Thread nD τ).loc main_arg5) (ix1 k) := by
  show V m c main_v1 (((cfg0.win 2).blk t).view.emb (ix2 0 k)) = _
  rw [emb_muk, V_muk, row_apply]

/-- The weights a point loads are the weight arrays. -/
theorem wrblk_apply (c : Dev nD) (t : Fin cfg0.N) (y : S1024x1024.Idx) :
    wrblk m c t y = m ((c : Thread nD τ).loc main_arg1) y := by
  show V m c main_v2 (((cfg0.win 3).blk t).view.emb y) = _
  rw [emb_wr, V_wr]
theorem wkblk_apply (c : Dev nD) (t : Fin cfg0.N) (y : S1024x1024.Idx) :
    wkblk m c t y = m ((c : Thread nD τ).loc main_arg2) y := by
  show V m c main_v3 (((cfg0.win 4).blk t).view.emb y) = _
  rw [emb_wk, V_wk]
theorem wvblk_apply (c : Dev nD) (t : Fin cfg0.N) (y : S1024x1024.Idx) :
    wvblk m c t y = m ((c : Thread nD τ).loc main_arg3) y := by
  show V m c main_v4 (((cfg0.win 5).blk t).view.emb y) = _
  rw [emb_wv, V_wv]

/-- Token p of the block point t loads is token (t % 8) · 256 + p of batch row t / 8. -/
theorem xblk_apply (c : Dev nD) (t : Fin cfg0.N) (p : Fin 256) (k : Fin 1024) (b : Fin 8) (s : Fin 2048)
    (hb : b.val = t.val / 8) (hs : s.val = t.val % 8 * 256 + p.val) :
    xblk m c t (ix3 0 p k) = m ((c : Thread nD τ).loc main_arg0) (ix3 b s k) := by
  obtain ⟨e0, e1, e2⟩ := idx_tokens t
  show V m c main_arg0 (((cfg0.win 0).blk t).view.emb (ix3 0 p k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * p.val = s.val; omega
  | ⟨2, _⟩ => show win0_0.index t (2 : Fin 3) * 1024 + 1 * k.val = k.val; omega

/-! ## A point's output block is its block of the layer's output -/

/-- The predecessor of token p of the block of point n is the specification's shifted token: inside the block the
    token before it, and for the block's first token the row handed in, which is zeros at the start of a batch row and
    the previous block's last token otherwise. So the block's blend is the layer's blend at token (n % 8) · 256 + p. -/
theorem blend_eq (c : Dev nD) (n : ℕ) (h : n < cfg0.N) (p : Fin 256) (k : Fin 1024) (b : Fin 8) (s : Fin 2048)
    (hb : b.val = n / 8) (hs : s.val = n % 8 * 256 + p.val)
    (mublk : FVec Ideal S1x1024 .f32) (mu : S1024.Idx → EReal) (hmu : ∀ k, mublk (ix2 0 k) = mu (ix1 k)) :
    blend mublk (xblk m c ⟨n, h⟩) (handed m c n h) p k
      = Cert.ChannelMix.mixed mu (m ((c : Thread nD τ).loc main_arg0)) b s k := by
  have hN : n < 64 := lt_of_lt_of_eq h (show cfg0.N = 64 from N_0)
  have hp := p.isLt
  unfold blend Cert.ChannelMix.mixed
  rw [hmu, xblk_apply m c ⟨n, h⟩ p k b s hb hs]
  congr 2
  unfold Cert.ChannelMix.shifted
  by_cases hp0 : p.val = 0
  · rw [dif_pos hp0]
    by_cases h0 : n % 8 = 0
    · rw [dif_pos (by omega)]
      unfold handed; rw [if_pos h0]
      exact zeroRow_apply k
    · rw [dif_neg (by omega)]
      unfold handed; rw [if_neg h0, lastRow_apply]
      exact xblk_apply m c ⟨n - 1, _⟩ ⟨255, by decide⟩ k b ⟨s.val - 1, _⟩ (by show b.val = (n - 1) / 8; omega)
        (by show s.val - 1 = (n - 1) % 8 * 256 + 255; omega)
  · rw [dif_neg hp0, dif_neg (by omega)]
    exact xblk_apply m c ⟨n, h⟩ ⟨p.val - 1, _⟩ k b ⟨s.val - 1, _⟩ hb (by show s.val - 1 = n % 8 * 256 + (p.val - 1); omega)

/-- The layer's output as the contents of the kernel's first result array. -/
abbrev outArr (c : Dev nD) : Buf (Elt Ideal) ((c : Thread nD τ).loc main_v5_0) :=
  Cert.ChannelMix.out (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- Entry (p, q) of the output block of point n is the layer's output at batch row n / 8, token (n % 8) · 256 + p,
    channel q: the same gate of the same blend against W_r, times the same squared clipped blend against W_k
    carried through W_v. -/
theorem out_block_eq (c : Dev nD) (n : ℕ) (h : n < cfg0.N) (p : Fin 256) (q : Fin 1024) (b : Fin 8) (s : Fin 2048)
    (hb : b.val = n / 8) (hs : s.val = n % 8 * 256 + p.val) :
    blockOut (xblk m c ⟨n, h⟩) (handed m c n h) (murblk m c ⟨n, h⟩) (mukblk m c ⟨n, h⟩)
      (wrblk m c ⟨n, h⟩) (wkblk m c ⟨n, h⟩) (wvblk m c ⟨n, h⟩) (ix3 0 p q) = outArr m c (ix3 b s q) := by
  have hr : ∀ k, blend (murblk m c ⟨n, h⟩) (xblk m c ⟨n, h⟩) (handed m c n h) p k
      = Cert.ChannelMix.mixed (m ((c : Thread nD τ).loc main_arg4)) (m ((c : Thread nD τ).loc main_arg0)) b s k :=
    fun k => blend_eq m c n h p k b s hb hs _ _ (murblk_apply m c ⟨n, h⟩)
  have hk : ∀ k, blend (mukblk m c ⟨n, h⟩) (xblk m c ⟨n, h⟩) (handed m c n h) p k
      = Cert.ChannelMix.mixed (m ((c : Thread nD τ).loc main_arg5)) (m ((c : Thread nD τ).loc main_arg0)) b s k :=
    fun k => blend_eq m c n h p k b s hb hs _ _ (mukblk_apply m c ⟨n, h⟩)
  rw [blockOut_apply]
  show _ = Cert.ChannelMix.gate _ _ _ b s q * Cert.ChannelMix.proj _ (Cert.ChannelMix.keyAct _ _ _ b s) q
  unfold Cert.ChannelMix.gate Cert.ChannelMix.keyAct Cert.ChannelMix.proj
  simp only [hr, hk, wrblk_apply, wkblk_apply, wvblk_apply]

/-- What point t writes back of the output is block t of the layer's output. -/
theorem flushed_out (c : Dev nD) (t : Fin cfg0.N) :
    (dats m 0 c).flushed 6 t = ((cfg0.win 6).blk t).view.read (Elt Ideal) (outArr m c) := by
  obtain ⟨n, h⟩ := t
  have hN : n < 64 := lt_of_lt_of_eq h (show cfg0.N = 64 from N_0)
  obtain ⟨e0, e1, e2⟩ := idx_output ⟨n, h⟩
  show (cfg0.win 6).cut (grid0.coords ⟨n, h⟩) ((dats m 0 c).after 6 ⟨n, h⟩) = _
  rw [after0_6]
  show (cfg0.win 6).cut (grid0.coords ⟨n, h⟩) (outsAt0 m c n h).1 = _
  rw [output_after]
  funext y
  obtain ⟨y0, p, q, rfl⟩ : ∃ (y0 : Fin 1) (p : Fin 256) (q : Fin 1024), y = ix3 y0 p q := ⟨y 0, y 1, y 2, eq_ix3 y⟩
  obtain rfl : y0 = 0 := Subsingleton.elim _ _
  have hp := p.isLt
  have hemb : ((cfg0.win 6).blk ⟨n, h⟩).view.emb (ix3 0 p q)
      = ix3 (⟨n / 8, by omega⟩ : Fin 8) (⟨n % 8 * 256 + p.val, by omega⟩ : Fin 2048) q := by
    funext a; apply Fin.ext
    match a with
    | ⟨0, _⟩ => show win0_6.index ⟨n, h⟩ (0 : Fin 3) * 1 + 1 * 0 = n / 8; dsimp only at e0; omega
    | ⟨1, _⟩ => show win0_6.index ⟨n, h⟩ (1 : Fin 3) * 256 + 1 * p.val = n % 8 * 256 + p.val; dsimp only at e1; omega
    | ⟨2, _⟩ => show win0_6.index ⟨n, h⟩ (2 : Fin 3) * 1024 + 1 * q.val = q.val; omega
  show blockOut (xblk m c ⟨n, h⟩) (handed m c n h) (murblk m c ⟨n, h⟩) (mukblk m c ⟨n, h⟩)
      (wrblk m c ⟨n, h⟩) (wkblk m c ⟨n, h⟩) (wvblk m c ⟨n, h⟩) (ix3 0 p q)
    = outArr m c (((cfg0.win 6).blk ⟨n, h⟩).view.emb (ix3 0 p q))
  rw [hemb]
  exact out_block_eq m c n h p q _ _ rfl rfl

/-- An index of the output array is in point t's block iff each coordinate is in the block's range on its axis. -/
theorem mem_out_blk (t : Fin cfg0.N) (i : S8x2048x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v5_0).slice (win0_6.rect t)).set ↔ _
  rw [View.set_slice_whole, Rect.mem_set_unit]
  exact Iff.rfl

/-- The 64 output blocks tile the output array: entry (b, s, q) lies in the block of point 8 b + s / 256. -/
theorem cover_out (i : S8x2048x1024.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 1024 := (i 2).isLt
  have hlt : (i 0).val * 8 + (i 1).val / 256 < cfg0.N := by rw [show cfg0.N = 64 from N_0]; omega
  refine ⟨⟨(i 0).val * 8 + (i 1).val / 256, hlt⟩, flush0_6 _, ?_⟩
  obtain ⟨e0, e1, e2⟩ := idx_output ⟨(i 0).val * 8 + (i 1).val / 256, hlt⟩
  dsimp only at e0 e1
  rw [mem_out_blk]
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 256 ≤ (i 1).val ∧ (i 1).val < win0_6.index _ (1 : Fin 3) * 256 + 256; omega
  | ⟨2, _⟩ => show win0_6.index _ (2 : Fin 3) * 1024 ≤ (i 2).val ∧ (i 2).val < win0_6.index _ (2 : Fin 3) * 1024 + 1024; omega

/-- So the first result array ends holding the layer's output. -/
theorem final_out (c : Dev nD) : (dats m 0 c).arrAt 6 cfg0.N = outArr m c :=
  (dats m 0 c).arrAt_eq_of_cover 6 (outArr m c) (fun t _ => flushed_out m c t) cover_out

/-! ## The state -/

/-- The last token of every row, as the contents of the [8, 1, 1024] array the kernel writes its state blocks into. -/
abbrev stateArr3 (c : Dev nD) : Buf (Elt Ideal) ((c : Thread nD τ).loc main_v5_1) :=
  fun j => m ((c : Thread nD τ).loc main_arg0) (ix3 (j 0) (⟨2047, by decide⟩ : Fin 2048) (j 2))

/-- The last point of batch row b writes back, as row b of the state array, its block's last token: token 2047. -/
theorem flushed_state (c : Dev nD) (t : Fin cfg0.N) (hf : (cfg0.win 7).flush t = true) :
    (dats m 0 c).flushed 7 t = ((cfg0.win 7).blk t).view.read (Elt Ideal) (stateArr3 m c) := by
  obtain ⟨n, h⟩ := t
  have hN : n < 64 := lt_of_lt_of_eq h (show cfg0.N = 64 from N_0)
  have h7 : n % 8 = 7 := (flush0_7 ⟨n, h⟩).mp hf
  obtain ⟨e0, e1, e2⟩ := idx_state ⟨n, h⟩
  show (cfg0.win 7).cut (grid0.coords ⟨n, h⟩) ((dats m 0 c).after 7 ⟨n, h⟩) = _
  rw [after0_7]
  show (cfg0.win 7).cut (grid0.coords ⟨n, h⟩) (outsAt0 m c n h).2.1 = _
  rw [state_after m c n h h7]
  funext y
  obtain ⟨y0, y1, k, rfl⟩ : ∃ (y0 : Fin 1) (y1 : Fin 1) (k : Fin 1024), y = ix3 y0 y1 k := ⟨y 0, y 1, y 2, eq_ix3 y⟩
  obtain rfl : y0 = 0 := Subsingleton.elim _ _
  obtain rfl : y1 = 0 := Subsingleton.elim _ _
  have hemb : ((cfg0.win 7).blk ⟨n, h⟩).view.emb (ix3 0 0 k) = ix3 (⟨n / 8, by omega⟩ : Fin 8) (0 : Fin 1) k := by
    funext a; apply Fin.ext
    match a with
    | ⟨0, _⟩ => show win0_7.index ⟨n, h⟩ (0 : Fin 3) * 1 + 1 * 0 = n / 8; dsimp only at e0; omega
    | ⟨1, _⟩ => show win0_7.index ⟨n, h⟩ (1 : Fin 3) * 1 + 1 * 0 = 0; omega
    | ⟨2, _⟩ => show win0_7.index ⟨n, h⟩ (2 : Fin 3) * 1024 + 1 * k.val = k.val; omega
  show stateRow (xblk m c ⟨n, h⟩) (ix3 0 0 k) = stateArr3 m c (((cfg0.win 7).blk ⟨n, h⟩).view.emb (ix3 0 0 k))
  rw [hemb, stateRow_apply]
  exact xblk_apply m c ⟨n, h⟩ ⟨255, by decide⟩ k _ _ rfl (by show 2047 = n % 8 * 256 + 255; omega)

/-- An index of the state array is in point t's block iff each coordinate is in the block's range on its axis. -/
theorem mem_state_blk (t : Fin cfg0.N) (i : S8x1x1024.Idx) :
    i ∈ ((cfg0.win 7).blk t).view.set ↔ ∀ a : Fin 3, win0_7.index t a * S1x1x1024.size a ≤ (i a).val
      ∧ (i a).val < win0_7.index t a * S1x1x1024.size a + S1x1x1024.size a := by
  show i ∈ ((View.whole main_v5_1).slice (win0_7.rect t)).set ↔ _
  rw [View.set_slice_whole, Rect.mem_set_unit]
  exact Iff.rfl

/-- The eight state blocks, one per batch row, tile the state array: row b is written back by point 8 b + 7. -/
theorem cover_state (i : S8x1x1024.Idx) :
    ∃ t : Fin cfg0.N, (cfg0.win 7).flush t = true ∧ i ∈ ((cfg0.win 7).blk t).view.set := by
  have h0 : (i 0).val < 8 := (i 0).isLt
  have h1 : (i 1).val < 1 := (i 1).isLt
  have h2 : (i 2).val < 1024 := (i 2).isLt
  have hlt : (i 0).val * 8 + 7 < cfg0.N := by rw [show cfg0.N = 64 from N_0]; omega
  refine ⟨⟨(i 0).val * 8 + 7, hlt⟩, (flush0_7 _).mpr (by show ((i 0).val * 8 + 7) % 8 = 7; omega), ?_⟩
  obtain ⟨e0, e1, e2⟩ := idx_state ⟨(i 0).val * 8 + 7, hlt⟩
  dsimp only at e0
  rw [mem_state_blk]
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 1 ≤ (i 1).val ∧ (i 1).val < win0_7.index _ (1 : Fin 3) * 1 + 1; omega
  | ⟨2, _⟩ => show win0_7.index _ (2 : Fin 3) * 1024 ≤ (i 2).val ∧ (i 2).val < win0_7.index _ (2 : Fin 3) * 1024 + 1024; omega

/-- So the state array ends holding every row's last token. -/
theorem final_state (c : Dev nD) : (dats m 0 c).arrAt 7 cfg0.N = stateArr3 m c :=
  (dats m 0 c).arrAt_eq_of_cover 7 (stateArr3 m c) (flushed_state m c) cover_state

/-- Dropping the state array's unit axis gives the layer's state. -/
theorem state_reshape (c : Dev nD) :
    shapeCast S8x1024 (stateArr3 m c) Facts₀.shapeCasts_S8x1x1024_S8x1024
      = Cert.ChannelMix.state (m ((c : Thread nD τ).loc main_arg0)) := by
  funext i
  have h0 : (i 0).val < 8 := (i 0).isLt
  have h1 : (i 1).val < 1024 := (i 1).isLt
  refine (shapeCast_apply (s := S8x1x1024) (t := S8x1024) (stateArr3 m c) Facts₀.shapeCasts_S8x1x1024_S8x1024 i
    (ix3 (⟨(i 0).val, h0⟩ : Fin 8) (0 : Fin 1) (⟨(i 1).val, h1⟩ : Fin 1024)) ?_).trans ?_
  · rw [Shape.rowMajor_val_three, Shape.rowMajor_val_two]
    show ((i 0).val * 1 + 0) * 1024 + (i 1).val = (i 0).val * 1024 + (i 1).val
    omega
  · rfl

/-- After the region the host drops the state array's unit axis: the second result is the layer's state. -/
theorem tail_state (c : Dev nD) :
    Pipeline.afterTail₀ cfgs (dats m) 0 (V0 m) [hostOps1] c main_v6
      = Cert.ChannelMix.state (m ((c : Thread nD τ).loc main_arg0)) := by
  have hw : Pipeline.withArrays (cfgs 0).spec c (V0 m c) (fun w => (dats m 0 c).arrAt w (cfgs 0).N)
      (Proc.devRef .tc main_v5_1) = stateArr3 m c :=
    (Pipeline.withArrays_arr spec0 launch0.win.arr_inj c _ _ 7).trans (final_state m c)
  rw [← state_reshape m c, ← hw]
  unfold Pipeline.afterTail₀
  show StableHlo.after hostOps1 _ (Proc.devRef .tc main_v6) = _
  after_results
  rfl

/-! ## The run, read -/

/-- Every weakly fair execution of the kernel program terminates with its first result at the layer's output and
    its second at the layer's state, the six arguments unchanged. -/
theorem run : θ_run defs (onTc (τ := τ) (main (F := Ideal))) ⟨m, fun _ => 0, ρ⟩ fun r => ∀ c : Dev nD,
      r.2.mem ((c.tc : Thread nD τ).loc main_v5_0) = outArr m c
      ∧ r.2.mem ((c.tc : Thread nD τ).loc main_v6) = Cert.ChannelMix.state (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 6).trans (final_out m c),
      ((h c).2 main_v6 (Pipeline.mem_restRefs_of main_v6 (by decide) (by decide))).trans (tail_state m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Arrays

end
-- ==== Proof.RefValue.lean ====
/-
  The reference's two results, read index by index at the ideal instance, are the layer's specification.
-/
import proofs.«133408_j63144609185889_1_alg».proof.Proof.Gen.ReferenceIdeal.Read
import proofs.«133408_j63144609185889_1_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Read Idealize.ShloMosaic Idealize.ShloMosaic.ValueIdx

/-- The joined array at a point: the zero piece is the whole first time step, and the slice of the input, which drops
    the last step, fills the later ones, so step t reads the input at step t - 1. -/
theorem shift_apply (x0 : (⟨S8x2048x1024, .f32⟩ : BufTy).Contents (Elt Ideal)) (b : Fin 8) (t : Fin 2048) (c : Fin 1024) :
    val_main_v2 (F := Ideal) x0 (ix3 b t c) = Cert.ChannelMix.shifted x0 b t c := by
  unfold Cert.ChannelMix.shifted val_main_v2
  have ht := t.isLt
  by_cases h : t.val = 0
  · rw [dif_pos h]
    refine (concatenate_pair_apply_left (t := S8x2048x1024) (s₁ := S8x1x1024) (s₂ := S8x2047x1024)
      (1 : Fin S8x2048x1024.rank) _ _ _ (ix3 b t c) rfl
      (ix3 b (⟨0, Nat.one_pos⟩ : Fin 1) c) (fun a => ?_)).trans ?_
    · match a with
      | ⟨0, _⟩ => rfl
      | ⟨1, _⟩ => exact h.symm
      | ⟨2, _⟩ => rfl
    · rw [val_main_v0_apply, val_main_cst_apply, Ideal.ofBits_def, Ideal.ofBits_zero_f32]
  · rw [dif_neg h]
    refine (concatenate_pair_apply_right (t := S8x2048x1024) (s₁ := S8x1x1024) (s₂ := S8x2047x1024)
      (1 : Fin S8x2048x1024.rank) _ _ _ (ix3 b t c) rfl rfl
      (ix3 b (⟨t.val - 1, by omega⟩ : Fin 2047) c) (fun a ha => ?_) ?_).trans ?_
    · match a, ha with
      | ⟨0, _⟩, _ => rfl
      | ⟨1, _⟩, ha => exact absurd rfl ha
      | ⟨2, _⟩, _ => rfl
    · show (t.val - 1) + 1 = t.val
      omega
    · rw [val_main_v1_apply]
      congr 1
      funext a
      apply Fin.ext
      match a with
      | ⟨0, _⟩ => rfl
      | ⟨1, _⟩ => rfl
      | ⟨2, _⟩ => rfl

/-- The blend that feeds the receptance: the weight and its complement to one are read at the channel alone. -/
theorem blend_r_apply (x0 : (⟨S8x2048x1024, .f32⟩ : BufTy).Contents (Elt Ideal))
    (x4 : (⟨S1024, .f32⟩ : BufTy).Contents (Elt Ideal)) (b : Fin 8) (t : Fin 2048) (c : Fin 1024) :
    val_main_v11 (F := Ideal) x0 x4 (ix3 b t c) = Cert.ChannelMix.mixed x4 x0 b t c := by
  have e1 : idx_main_v3 (idx_main_v4 (ix3 b t c)) = ix1 c :=
    funext fun a => Fin.ext (by match a with | ⟨0, _⟩ => rfl)
  have e2 : idx_main_v8 (idx_main_v9 (ix3 b t c)) = ix1 c :=
    funext fun a => Fin.ext (by match a with | ⟨0, _⟩ => rfl)
  rw [val_main_v11_apply, val_main_v5_apply, val_main_v10_apply, val_main_v4_apply, val_main_v3_apply,
    val_main_v9_apply, val_main_v8_apply, val_main_v7_apply, val_main_v6_apply, val_main_cst_0_apply, e1, e2,
    shift_apply]
  simp only [Ideal.mulf_def, Ideal.addf_def, Ideal.subf_def, Ideal.ofBits_def, Ideal.ofBits_one_f32]
  rfl

/-- The blend that feeds the key, the same reading with the key's weight. -/
theorem blend_k_apply (x0 : (⟨S8x2048x1024, .f32⟩ : BufTy).Contents (Elt Ideal))
    (x5 : (⟨S1024, .f32⟩ : BufTy).Contents (Elt Ideal)) (b : Fin 8) (t : Fin 2048) (c : Fin 1024) :
    val_main_v20 (F := Ideal) x0 x5 (ix3 b t c) = Cert.ChannelMix.mixed x5 x0 b t c := by
  have e1 : idx_main_v12 (idx_main_v13 (ix3 b t c)) = ix1 c :=
    funext fun a => Fin.ext (by match a with | ⟨0, _⟩ => rfl)
  have e2 : idx_main_v17 (idx_main_v18 (ix3 b t c)) = ix1 c :=
    funext fun a => Fin.ext (by match a with | ⟨0, _⟩ => rfl)
  rw [val_main_v20_apply, val_main_v14_apply, val_main_v19_apply, val_main_v13_apply, val_main_v12_apply,
    val_main_v18_apply, val_main_v17_apply, val_main_v16_apply, val_main_v15_apply, val_main_cst_1_apply, e1, e2,
    shift_apply]
  simp only [Ideal.mulf_def, Ideal.addf_def, Ideal.subf_def, Ideal.ofBits_def, Ideal.ofBits_one_f32]
  rfl

/-- The first contraction: output channel d sums the receptance blend of (b, t) against row d of the weight. -/
theorem recept_apply (x0 : (⟨S8x2048x1024, .f32⟩ : BufTy).Contents (Elt Ideal))
    (x1 : (⟨S1024x1024, .f32⟩ : BufTy).Contents (Elt Ideal)) (x4 : (⟨S1024, .f32⟩ : BufTy).Contents (Elt Ideal))
    (b : Fin 8) (t : Fin 2048) (d : Fin 1024) :
    val_main_v21 (F := Ideal) x0 x1 x4 (ix3 b t d)
      = Cert.ChannelMix.proj x1 (Cert.ChannelMix.mixed x4 x0 b t) d := by
  rw [val_main_v21_apply]
  unfold Cert.ChannelMix.proj
  refine Finset.sum_congr rfl fun k _ => ?_
  have el : lidx_main_v21 (ix3 b t d) k = ix3 b t k :=
    funext fun a => Fin.ext (by match a with | ⟨0, _⟩ => rfl | ⟨1, _⟩ => rfl | ⟨2, _⟩ => rfl)
  have er : ridx_main_v21 (ix3 b t d) k = ix2 d k :=
    funext fun a => Fin.ext (by match a with | ⟨0, _⟩ => rfl | ⟨1, _⟩ => rfl)
  rw [el, er, blend_r_apply]

/-- The second contraction, on the key blend. -/
theorem keyproj_apply (x0 : (⟨S8x2048x1024, .f32⟩ : BufTy).Contents (Elt Ideal))
    (x2 : (⟨S1024x1024, .f32⟩ : BufTy).Contents (Elt Ideal)) (x5 : (⟨S1024, .f32⟩ : BufTy).Contents (Elt Ideal))
    (b : Fin 8) (t : Fin 2048) (e : Fin 1024) :
    val_main_v28 (F := Ideal) x0 x2 x5 (ix3 b t e)
      = Cert.ChannelMix.proj x2 (Cert.ChannelMix.mixed x5 x0 b t) e := by
  rw [val_main_v28_apply]
  unfold Cert.ChannelMix.proj
  refine Finset.sum_congr rfl fun k _ => ?_
  have el : lidx_main_v28 (ix3 b t e) k = ix3 b t k :=
    funext fun a => Fin.ext (by match a with | ⟨0, _⟩ => rfl | ⟨1, _⟩ => rfl | ⟨2, _⟩ => rfl)
  have er : ridx_main_v28 (ix3 b t e) k = ix2 e k :=
    funext fun a => Fin.ext (by match a with | ⟨0, _⟩ => rfl | ⟨1, _⟩ => rfl)
  rw [el, er, blend_k_apply]

/-- One over one plus the exponential of the negated projection is the logistic function of the projection. -/
theorem gate_apply (x0 : (⟨S8x2048x1024, .f32⟩ : BufTy).Contents (Elt Ideal))
    (x1 : (⟨S1024x1024, .f32⟩ : BufTy).Contents (Elt Ideal)) (x4 : (⟨S1024, .f32⟩ : BufTy).Contents (Elt Ideal))
    (b : Fin 8) (t : Fin 2048) (d : Fin 1024) :
    val_main_v27 (F := Ideal) x0 x1 x4 (ix3 b t d) = Cert.ChannelMix.gate x0 x1 x4 b t d := by
  rw [val_main_v27_apply, val_main_v26_apply, val_main_cst_3_apply, val_main_v25_apply, val_main_v24_apply,
    val_main_cst_2_apply, val_main_v23_apply, val_main_v22_apply, recept_apply]
  simp only [Ideal.hostDivf_def, Ideal.addf_def, Ideal.hostUnary_exp_def, Ideal.hostNegf_def, Ideal.negf_def,
    Ideal.ofBits_def]
  exact Cert.ChannelMix.logistic_eq_quotient _

/-- The maximum with the zero array, multiplied by itself, is the key activation. -/
theorem key_apply (x0 : (⟨S8x2048x1024, .f32⟩ : BufTy).Contents (Elt Ideal))
    (x2 : (⟨S1024x1024, .f32⟩ : BufTy).Contents (Elt Ideal)) (x5 : (⟨S1024, .f32⟩ : BufTy).Contents (Elt Ideal))
    (b : Fin 8) (t : Fin 2048) (e : Fin 1024) :
    val_main_v30 (F := Ideal) x0 x2 x5 (ix3 b t e) = Cert.ChannelMix.keyAct x0 x2 x5 b t e := by
  rw [val_main_v30_apply, val_main_v29_apply, val_main_call0_v0_apply, val_main_call0_cst_apply, keyproj_apply]
  simp only [Ideal.mulf_def, Ideal.maximumf_def, Ideal.ofBits_def, Ideal.ofBits_zero_f32]
  rfl

/-- The reference's first result is the layer's output. -/
theorem out_eq (x0 : (⟨S8x2048x1024, .f32⟩ : BufTy).Contents (Elt Ideal))
    (x1 x2 x3 : (⟨S1024x1024, .f32⟩ : BufTy).Contents (Elt Ideal))
    (x4 x5 : (⟨S1024, .f32⟩ : BufTy).Contents (Elt Ideal)) :
    val_main_v32 (F := Ideal) x0 x1 x2 x3 x4 x5 = Cert.ChannelMix.out x0 x1 x2 x3 x4 x5 := by
  funext i
  obtain ⟨b, t, d, rfl⟩ : ∃ (b : Fin 8) (t : Fin 2048) (d : Fin 1024), i = ix3 b t d :=
    ⟨i 0, i 1, i 2, eq_ix3 i⟩
  rw [val_main_v32_apply, gate_apply, val_main_v31_apply, Ideal.mulf_def]
  show _ = Cert.ChannelMix.gate x0 x1 x4 b t d * Cert.ChannelMix.proj x3 (Cert.ChannelMix.keyAct x0 x2 x5 b t) d
  congr 1
  unfold Cert.ChannelMix.proj
  refine Finset.sum_congr rfl fun k _ => ?_
  have el : lidx_main_v31 (ix3 b t d) k = ix3 b t k :=
    funext fun a => Fin.ext (by match a with | ⟨0, _⟩ => rfl | ⟨1, _⟩ => rfl | ⟨2, _⟩ => rfl)
  have er : ridx_main_v31 (ix3 b t d) k = ix2 d k :=
    funext fun a => Fin.ext (by match a with | ⟨0, _⟩ => rfl | ⟨1, _⟩ => rfl)
  rw [el, er, key_apply]

/-- The reference's second result is the last token of every row. -/
theorem state_eq (x0 : (⟨S8x2048x1024, .f32⟩ : BufTy).Contents (Elt Ideal)) :
    val_main_v34 (F := Ideal) x0 = Cert.ChannelMix.state x0 := by
  funext i
  obtain ⟨b, c, rfl⟩ : ∃ (b : Fin 8) (c : Fin 1024), i = ix2 b c := ⟨i 0, i 1, eq_ix2 i⟩
  rw [val_main_v34_apply, val_main_v33_apply]
  show x0 _ = x0 (ix3 b ⟨2047, by decide⟩ c)
  congr 1
  funext a
  apply Fin.ext
  have hb := b.isLt
  have hc := c.isLt
  match a with
  | ⟨0, _⟩ =>
    show (b.val * 1024 + c.val) / 1024 = b.val
    omega
  | ⟨1, _⟩ => rfl
  | ⟨2, _⟩ =>
    show (b.val * 1024 + c.val) % 1024 = c.val
    omega

end Cert.RefValue

end
-- ==== Proof.lean ====
/-
  The channel-mix kernel against its reference: both compute, over the extended reals, the same function of the
  six argument arrays.

  With shift(x)[b, t, c] = x[b, t-1, c] (zero at t = 0) and blend_mu(x) = mu · x + (1 - mu) · shift(x), the layer is
    out   = logistic(blend_{mu_r}(x) · W_rᵀ) · ((max(blend_{mu_k}(x) · W_kᵀ, 0))² · W_vᵀ),
    state = x[:, 2047, :].
  The reference spells this with whole-array operations; read index by index it is the specification
  (RefValue). The kernel walks a grid of 8 batch rows × 8 blocks of 256 tokens and carries the last token of each
  block to the next step in a scratch row that it resets to zero at the start of every batch row, which is exactly
  the shift across block boundaries (KernelPieces, KernelBlock); its 64 output blocks tile the output, and the last
  step of each batch row writes that row of the state (KernelArrays). The format changes to bf16 are the identity on
  the extended reals, a matrix product into a zero accumulator is the same finite sum as the host's contraction, and
  the kernel's logistic is the host's quotient 1 / (1 + e^(-z)); no law beyond that is used, so the precondition is
  never opened. The idealization rewrote nothing, so the preservation claim is trivial.
-/
import proofs.«133408_j63144609185889_1_alg».proof.Defs
import proofs.«133408_j63144609185889_1_alg».proof.Proof.Gen.Kernel
import proofs.«133408_j63144609185889_1_alg».proof.Proof.Gen.Kernel.Skeleton
import proofs.«133408_j63144609185889_1_alg».proof.Proof.Gen.Kernel.Launch
import proofs.«133408_j63144609185889_1_alg».proof.Proof.Gen.Kernel.Points
import proofs.«133408_j63144609185889_1_alg».proof.Proof.Gen.Kernel.Frame
import proofs.«133408_j63144609185889_1_alg».proof.Proof.Gen.KernelIdeal
import proofs.«133408_j63144609185889_1_alg».proof.Proof.Gen.KernelIdeal.Skeleton
import proofs.«133408_j63144609185889_1_alg».proof.Proof.Gen.KernelIdeal.Launch
import proofs.«133408_j63144609185889_1_alg».proof.Proof.Gen.KernelIdeal.Points
import proofs.«133408_j63144609185889_1_alg».proof.Proof.Gen.KernelIdeal.Frame
import proofs.«133408_j63144609185889_1_alg».proof.Proof.Gen.ReferenceIdeal
import proofs.«133408_j63144609185889_1_alg».proof.Proof.Gen.ReferenceIdeal.Run
import proofs.«133408_j63144609185889_1_alg».proof.Proof.Gen.ReferenceIdeal.Read
import proofs.«133408_j63144609185889_1_alg».proof.Proof.Gen.Pre_finite_inputs
import proofs.«133408_j63144609185889_1_alg».proof.Proof.KernelArrays
import proofs.«133408_j63144609185889_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the layer's output and state of the arguments, which agree. -/
theorem algebraic : Cert.algebraic_KernelIdeal_ReferenceIdeal := by
  intro m ρ m' ρ' _ hagree
  refine ⟨fun c => Cert.KernelIdeal.Arrays.outArr m c,
    fun c => Cert.ChannelMix.state (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v32_eq, Cert.RefValue.out_eq, (hagree c).1, (hagree c).2.1, (hagree c).2.2.1,
      (hagree c).2.2.2.1, (hagree c).2.2.2.2.1, (hagree c).2.2.2.2.2]
  · rw [Cert.ReferenceIdeal.Read.val_main_v34_eq, Cert.RefValue.state_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
